-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x4096x128 : Shape := ⟨4, ![2, 16, 4096, 128]⟩
abbrev S_ : Shape := ⟨0, ![]⟩

class Facts : Prop where
  bcast_S_S2x16x4096x128 : S_.BroadcastsInDim S2x16x4096x128 (![] : Fin 0 → Fin S2x16x4096x128.rank)
  reducesTo_S2x16x4096x128_S_d0_1_2_3 : S2x16x4096x128.ReducesTo [0, 1, 2, 3] S_
  h_S_ : 0 < S_.numel

variable [Facts]

def fn {F : FTy → Type} [FloatOps F] (main_arg0 : FVec F S2x16x4096x128 .f32) (main_arg1 : FVec F S2x16x4096x128 .f32) (main_arg2 : FVec F S2x16x4096x128 .f32) : IVec S_ 1 :=
  let main_v0 : FVec F S2x16x4096x128 .f32 := Host.absf main_arg0
  let main_cst : FVec F S_ .f32 := constant S_ .f32 0x7F800000#32
  let main_v1 : FVec F S2x16x4096x128 .f32 := broadcastInDim S2x16x4096x128 ![] bcast_S_S2x16x4096x128 main_cst
  let main_v2 : IVec S2x16x4096x128 1 := cmpf .olt main_v0 main_v1
  let main_c : IVec S_ 1 := constantI S_ 1 1#1
  let main_v3 : IVec S_ 1 := (fun x v => Host.reduce IntOp.andi x v reducesTo_S2x16x4096x128_S_d0_1_2_3 h_S_) main_v2 main_c
  let main_v4 : FVec F S2x16x4096x128 .f32 := Host.absf main_arg1
  let main_cst_0 : FVec F S_ .f32 := constant S_ .f32 0x7F800000#32
  let main_v5 : FVec F S2x16x4096x128 .f32 := broadcastInDim S2x16x4096x128 ![] bcast_S_S2x16x4096x128 main_cst_0
  let main_v6 : IVec S2x16x4096x128 1 := cmpf .olt main_v4 main_v5
  let main_c_1 : IVec S_ 1 := constantI S_ 1 1#1
  let main_v7 : IVec S_ 1 := (fun x v => Host.reduce IntOp.andi x v reducesTo_S2x16x4096x128_S_d0_1_2_3 h_S_) main_v6 main_c_1
  let main_v8 : IVec S_ 1 := andi main_v3 main_v7
  let main_v9 : FVec F S2x16x4096x128 .f32 := Host.absf main_arg2
  let main_cst_2 : FVec F S_ .f32 := constant S_ .f32 0x7F800000#32
  let main_v10 : FVec F S2x16x4096x128 .f32 := broadcastInDim S2x16x4096x128 ![] bcast_S_S2x16x4096x128 main_cst_2
  let main_v11 : IVec S2x16x4096x128 1 := cmpf .olt main_v9 main_v10
  let main_c_3 : IVec S_ 1 := constantI S_ 1 1#1
  let main_v12 : IVec S_ 1 := (fun x v => Host.reduce IntOp.andi x v reducesTo_S2x16x4096x128_S_d0_1_2_3 h_S_) main_v11 main_c_3
  let main_v13 : IVec S_ 1 := andi main_v8 main_v12
  main_v13
-- ==== Kernel.lean ====
abbrev S2x16x4096x128 : Shape := ⟨4, ![2, 16, 4096, 128]⟩
abbrev S2x16x128x128 : Shape := ⟨4, ![2, 16, 128, 128]⟩
abbrev S1x1x2048x128 : Shape := ⟨4, ![1, 1, 2048, 128]⟩
abbrev S1x1x128x128 : Shape := ⟨4, ![1, 1, 128, 128]⟩
abbrev S128x128 : Shape := ⟨2, ![128, 128]⟩
abbrev S2048x128 : Shape := ⟨2, ![2048, 128]⟩

abbrev nBuf : Space → Nat
  | .hbm => 5
  | .vmem => 15
  | .smem => 0
  | _ => 0

abbrev bufTy : (tb : Table) → Fin (tcTables nBuf tb) → BufTy
  | .hbm, ⟨0, _⟩ => ⟨S2x16x4096x128, .f32⟩
  | .hbm, ⟨1, _⟩ => ⟨S2x16x4096x128, .f32⟩
  | .hbm, ⟨2, _⟩ => ⟨S2x16x4096x128, .f32⟩
  | .hbm, ⟨3, _⟩ => ⟨S2x16x128x128, .f32⟩
  | .hbm, ⟨4, _⟩ => ⟨S2x16x4096x128, .f32⟩
  | .local _ .vmem, ⟨0, _⟩ => ⟨S1x1x2048x128, .f32⟩
  | .local _ .vmem, ⟨1, _⟩ => ⟨S1x1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x128x128, .f32⟩
  | .local _ .vmem, ⟨5, _⟩ => ⟨S1x1x128x128, .f32⟩
  | .local _ .vmem, ⟨6, _⟩ => ⟨S128x128, .f32⟩
  | .local _ .vmem, ⟨7, _⟩ => ⟨S1x1x2048x128, .f32⟩
  | .local _ .vmem, ⟨8, _⟩ => ⟨S1x1x2048x128, .f32⟩
  | .local _ .vmem, ⟨9, _⟩ => ⟨S1x1x2048x128, .f32⟩
  | .local _ .vmem, ⟨10, _⟩ => ⟨S1x1x2048x128, .f32⟩
  | .local _ .vmem, ⟨11, _⟩ => ⟨S1x1x128x128, .f32⟩
  | .local _ .vmem, ⟨12, _⟩ => ⟨S1x1x128x128, .f32⟩
  | .local _ .vmem, ⟨13, _⟩ => ⟨S1x1x2048x128, .f32⟩
  | .local _ .vmem, ⟨14, _⟩ => ⟨S1x1x2048x128, .f32⟩
  | _, _ => ⟨S2x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![2, 16, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_12 : BitVec 32 := 0#32
  let v17 : BitVec 1 := Scalar.cmpi .ne v16 c0_i32_12
  v17

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 16, 2], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  bitsLt_bf16_f32 : FTy.bits .bf16 < FTy.bits .f32
  inb_S1x1x128x128_S1x1x128x128_0_0_0_0 : ∀ a, (![0, 0, 0, 0] : Fin 4 → Nat) a + S1x1x128x128.size a ≤ S1x1x128x128.size a
  h_S1x1x128x128 : 0 < S1x1x128x128.numel
  shapeCasts_S1x1x128x128_S128x128 : S1x1x128x128.ShapeCasts S128x128
  shapeCasts_S128x128_S1x1x128x128 : S128x128.ShapeCasts S1x1x128x128
  shapeCasts_S2048x128_S1x1x2048x128 : S2048x128.ShapeCasts S1x1x2048x128
  dot_S2048x128_S2048x128_S128x128_0_0_1_1_n_n_wf : DotDims.WF S2048x128 S2048x128 S128x128 [0] [0] [1] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x128.size a ≤ S2x16x4096x128.size a
  hwx0_0 : ∀ i : grid0.Coords, EltTy.bits .f32 = 32 ∨ (Rect.block (s := S2x16x4096x128) S1x1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x128.size a ≤ S2x16x4096x128.size a
  hwx0_1 : ∀ i : grid0.Coords, EltTy.bits .f32 = 32 ∨ (Rect.block (s := S2x16x4096x128) S1x1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x128.size a ≤ S2x16x128x128.size a
  hwx0_2 : ∀ i : grid0.Coords, EltTy.bits .f32 = 32 ∨ (Rect.block (s := S2x16x128x128) S1x1x128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048x128.size a ≤ S2x16x4096x128.size a
  hwx1_0 : ∀ i : grid1.Coords, EltTy.bits .f32 = 32 ∨ (Rect.block (s := S2x16x4096x128) S1x1x2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x128.size a ≤ S2x16x4096x128.size a
  hwx1_1 : ∀ i : grid1.Coords, EltTy.bits .f32 = 32 ∨ (Rect.block (s := S2x16x4096x128) S1x1x2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128x128.size a ≤ S2x16x128x128.size a
  hwx1_2 : ∀ i : grid1.Coords, EltTy.bits .f32 = 32 ∨ (Rect.block (s := S2x16x128x128) S1x1x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048x128.size a ≤ S2x16x4096x128.size a
  hwx1_3 : ∀ i : grid1.Coords, EltTy.bits .f32 = 32 ∨ (Rect.block (s := S2x16x4096x128) S1x1x2048x128.size (cc1_transform_3 i) (hinb1_3 i)).WholeWords (EltTy.packing .f32)

variable [Facts₀]

def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg1) S1x1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x1x2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1x2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x16x4096x128 : Shape := ⟨4, ![2, 16, 4096, 128]⟩
abbrev S2x16x128x128 : Shape := ⟨4, ![2, 16, 128, 128]⟩

abbrev nBuf : Space → Nat
  | .hbm => 6
  | .vmem => 0
  | .smem => 0
  | _ => 0

abbrev bufTy : (tb : Table) → Fin (tcTables nBuf tb) → BufTy
  | .hbm, ⟨0, _⟩ => ⟨S2x16x4096x128, .f32⟩
  | .hbm, ⟨1, _⟩ => ⟨S2x16x4096x128, .f32⟩
  | .hbm, ⟨2, _⟩ => ⟨S2x16x4096x128, .f32⟩
  | .hbm, ⟨3, _⟩ => ⟨S2x16x128x128, .f32⟩
  | .hbm, ⟨4, _⟩ => ⟨S2x16x4096x128, .f32⟩
  | .hbm, ⟨5, _⟩ => ⟨S2x16x4096x128, .f32⟩
  | _, _ => ⟨S2x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  dot_S2x16x4096x128_S2x16x4096x128_S2x16x128x128_2_2_3_3_01_01_wf : DotDims.WF S2x16x4096x128 S2x16x4096x128 S2x16x128x128 [2] [2] [3] [3] [0, 1] [0, 1]
  dot_S2x16x4096x128_S2x16x128x128_S2x16x4096x128_3_2_2_3_01_01_wf : DotDims.WF S2x16x4096x128 S2x16x128x128 S2x16x4096x128 [3] [2] [2] [3] [0, 1] [0, 1]

variable [Facts₀]

def dot_S2x16x4096x128_S2x16x4096x128_S2x16x128x128_2_2_3_3_01_01 : DotDims S2x16x4096x128 S2x16x4096x128 S2x16x128x128 where
  lhsContracting := [2]
  rhsContracting := [2]
  lhsNonContracting := [3]
  rhsNonContracting := [3]
  lhsBatch := [0, 1]
  rhsBatch := [0, 1]
  wf := dot_S2x16x4096x128_S2x16x4096x128_S2x16x128x128_2_2_3_3_01_01_wf
def dot_S2x16x4096x128_S2x16x128x128_S2x16x4096x128_3_2_2_3_01_01 : DotDims S2x16x4096x128 S2x16x128x128 S2x16x4096x128 where
  lhsContracting := [3]
  rhsContracting := [2]
  lhsNonContracting := [2]
  rhsNonContracting := [3]
  lhsBatch := [0, 1]
  rhsBatch := [0, 1]
  wf := dot_S2x16x4096x128_S2x16x128x128_S2x16x4096x128_3_2_2_3_01_01_wf

class Facts : Prop extends Facts₀ where

variable [Facts]
-- ==== Proof.R0Body.lean ====
/-
  Region 0 of the program, the key-value kernel, at any float instance. Its grid is (b, h, s) with s the fastest axis
  and two values of s; at point (b, h, s) it reads the block (b, h, s, ·) of the key array and of the value array (2048
  rows each) and adds their product, contracted over the 2048 rows, into a 128 x 128 accumulator that lives in a scratch
  buffer and is carried from point to point: at s = 0 the accumulator is first set to zero, at s = 1 it is afterwards
  copied into the block (b, h, ·, ·) of the result, which is written back there and only there.
  So the body has two control paths, told apart by the parity of the point's position, and what the scratch holds after
  point n (`accAt0`) is defined by recursion on n: one accumulation step from zero at an even position, from what the
  point before left at an odd one. The region's invariant carries the scratch at that contents.
  Stated at a parameter `V`: the contents of the core's buffers when the region is entered.
-/
import proofs.«141568_j48155173323323_1_alg».proof.Proof.Gen.KernelIdeal.Launch
import proofs.«141568_j48155173323323_1_alg».proof.Proof.Gen.KernelIdeal.Skeleton
import proofs.«141568_j48155173323323_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point (both inputs are fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two control paths, by the parity of the point's position -/

/-- The body resets the accumulator: its first conditional's condition, from the grid coordinates. -/
abbrev condReset (i : grid0.Coords) : Prop := (Scalar.cmpi .ne (Scalar.extui (Scalar.cmpi .eq (BitVec.ofNat 32 (i 2).val) 0#32)) 0#32) = 1#1
/-- It holds at the even positions (s = 0). -/
theorem hcondReset : ∀ t : Fin cfg0.N, condReset (grid0.coords t) ↔ t.val % 2 = 0 :=
  (by decide +kernel : ∀ t : Fin grid0.N, condReset (grid0.coords t) ↔ t.val % 2 = 0)
/-- The body copies the accumulator out: its second conditional's condition. -/
abbrev condOut (i : grid0.Coords) : Prop := k0_cond2 i = 1#1
/-- It holds at the odd positions (s = 1). -/
theorem hcondOut : ∀ t : Fin cfg0.N, condOut (grid0.coords t) ↔ t.val % 2 = 1 :=
  (by decide +kernel : ∀ t : Fin grid0.N, condOut (grid0.coords t) ↔ t.val % 2 = 1)

/-- The output window is idle, and not written back, at the even positions; live at the odd ones. -/
theorem idleAt0_2 : ∀ t : Fin cfg0.N, t.val % 2 = 0 → cfg0.idle 2 (grid0.coords t) = true := by decide +kernel
theorem noFlush0_2 : ∀ t : Fin cfg0.N, t.val % 2 = 0 → (cfg0.win 2).flush t = false := by decide +kernel
theorem liveAt0_2 : ∀ t : Fin cfg0.N, t.val % 2 = 1 → cfg0.idle 2 (grid0.coords t) = false := by decide +kernel

/-- The body's access rectangles: whole buffers of the three shapes it touches. -/
abbrev qBig : Rect S1x1x2048x128 := Rect.unit (s := S1x1x2048x128) ![0, 0, 0, 0] S1x1x2048x128.size inb_S1x1x2048x128_S1x1x2048x128_0_0_0_0
abbrev qSq : Rect S1x1x128x128 := Rect.unit (s := S1x1x128x128) ![0, 0, 0, 0] S1x1x128x128.size inb_S1x1x128x128_S1x1x128x128_0_0_0_0
abbrev qAcc : Rect S128x128 := Rect.unit (s := S128x128) ![0, 0] S128x128.size inb_S128x128_S128x128_0_0

/-- The scratch accumulator, a whole scoped buffer passed to the body beside the windows. -/
abbrev scM0 : Memref sig .tc .vmem S128x128 .f32 := Memref.whole cc0_scratch0

theorem hz4 : (![0, 0, 0, 0] : Fin 4 → Nat) = fun _ => 0 := by
  funext a; match a with | ⟨0, _⟩ => rfl | ⟨1, _⟩ => rfl | ⟨2, _⟩ => rfl | ⟨3, _⟩ => rfl
theorem hz2 : (![0, 0] : Fin 2 → Nat) = fun _ => 0 := by
  funext a; match a with | ⟨0, _⟩ => rfl | ⟨1, _⟩ => rfl

set_option maxHeartbeats 1000000 in
/-- The body at a point that resets and does not copy out (s = 0): on whole memrefs, the inputs' at `xk`, `xv`, the
    output's at `xo` and the scratch at anything, it leaves the inputs and the output as they were and the scratch at
    one accumulation step from zero. -/
theorem sound_kernel0_A (c : Dev nD) (E : Set ℕ) (i : grid0.Coords)
    (arg3 : Memref sig .tc .vmem S1x1x2048x128 .f32) (harg3 : arg3.IsWhole) (arg4 : Memref sig .tc .vmem S1x1x2048x128 .f32) (harg4 : arg4.IsWhole)
    (arg5 : Memref sig .tc .vmem S1x1x128x128 .f32) (harg5 : arg5.IsWhole) (arg6 : Memref sig .tc .vmem S128x128 .f32) (harg6 : arg6.IsWhole)
    (hc0 : condReset i) (hc1 : ¬condOut i)
    (xk : Vec F S1x1x2048x128 .f32) (xv : Vec F S1x1x2048x128 .f32) (xo : Vec F S1x1x128x128 .f32) (K : PUnit → sProp 𝕄) :
    iprop(owns (c : Thread nD τ) arg3 fullShare xk ∗ owns (c : Thread nD τ) arg4 fullShare xv ∗ owns (c : Thread nD τ) arg5 fullShare xo
        ∗ (∃ d, owns (c : Thread nD τ) arg6 fullShare d)
        ∗ (iprop(owns (c : Thread nD τ) arg3 fullShare xk ∗ owns (c : Thread nD τ) arg4 fullShare xv ∗ owns (c : Thread nD τ) arg5 fullShare xo
            ∗ owns (c : Thread nD τ) arg6 fullShare (k0_pay2 xk xv (k0_pay1 (F := F)))) -∗ K ⟨⟩))
      ⊢ wp frame (wpE (defs₀ (F := F)) Variants.none c none) E (cc0__kv_kernel i arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (fun y => ⟨_, List.mem_cons.mpr (Or.inl rfl), View.mem_set_unit_zero hz2 inb_S128x128_S128x128_0_0 y⟩),
    View.canon_cons_unit_zero hz2]
  simp only [View.readAt_eq_ld, View.ld_unit_zero (S := S1x1x2048x128) hz4, View.readCov_unit_zero (S := S128x128) _ hz2]

set_option maxHeartbeats 1000000 in
/-- The body at a point that does not reset and copies out (s = 1): the inputs' at `xk`, `xv`, the output's at anything
    and the scratch at `xs`; it leaves the scratch at one accumulation step from `xs` and the output at that, re-laid. -/
theorem sound_kernel0_B (c : Dev nD) (E : Set ℕ) (i : grid0.Coords)
    (arg3 : Memref sig .tc .vmem S1x1x2048x128 .f32) (harg3 : arg3.IsWhole) (arg4 : Memref sig .tc .vmem S1x1x2048x128 .f32) (harg4 : arg4.IsWhole)
    (arg5 : Memref sig .tc .vmem S1x1x128x128 .f32) (harg5 : arg5.IsWhole) (arg6 : Memref sig .tc .vmem S128x128 .f32) (harg6 : arg6.IsWhole)
    (hc0 : ¬condReset i) (hc1 : condOut i)
    (xk : Vec F S1x1x2048x128 .f32) (xv : Vec F S1x1x2048x128 .f32) (xs : Vec F S128x128 .f32) (K : PUnit → sProp 𝕄) :
    iprop(owns (c : Thread nD τ) arg3 fullShare xk ∗ owns (c : Thread nD τ) arg4 fullShare xv ∗ (∃ d, owns (c : Thread nD τ) arg5 fullShare d)
        ∗ owns (c : Thread nD τ) arg6 fullShare xs
        ∗ (iprop(owns (c : Thread nD τ) arg3 fullShare xk ∗ owns (c : Thread nD τ) arg4 fullShare xv
            ∗ owns (c : Thread nD τ) arg5 fullShare (k0_pay3 (k0_pay2 xk xv xs))
            ∗ owns (c : Thread nD τ) arg6 fullShare (k0_pay2 xk xv xs)) -∗ K ⟨⟩))
      ⊢ wp frame (wpE (defs₀ (F := F)) Variants.none c none) E (cc0__kv_kernel i arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons.mpr (Or.inl rfl), View.mem_set_unit_zero hz4 inb_S1x1x128x128_S1x1x128x128_0_0_0_0 y⟩),
      View.canon_cons_unit_zero hz4]
    simp only [View.readAt_eq_ld, View.ld_unit_zero (S := S1x1x2048x128) hz4, View.ld_unit_zero (S := S128x128) hz2, View.readCov_unit_zero (S := S128x128) _ hz2]
  iexists _; isplitr
  swap; · iexact H3
  ipureintro
  sl_unfold_words
  rw [View.read_writes_eq_canon _ _ _ (fun y => ⟨_, List.mem_cons.mpr (Or.inl rfl), View.mem_set_unit_zero hz2 inb_S128x128_S128x128_0_0 y⟩),
    View.canon_cons_unit_zero hz2]
  simp only [View.readAt_eq_ld, View.ld_unit_zero (S := S1x1x2048x128) hz4, View.ld_unit_zero (S := S128x128) hz2]

/-! ## What the scratch holds after each point -/

/-- THE ACCUMULATION: the scratch after the body at position `n`. At an even position (s = 0) one step from zero over
    the point's key and value blocks; at an odd one (s = 1) one step from what the point before left. -/
def accAt0 (c : Dev nD) : (n : ℕ) → n < cfg0.N → Vec F S128x128 .f32
  | 0, hn => k0_pay2 (iblk0 V c 0 ⟨0, hn⟩) (iblk0 V c 1 ⟨0, hn⟩) (k0_pay1 (F := F))
  | n + 1, hn =>
    if (n + 1) % 2 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (accAt0 c n (Nat.lt_of_succ_lt hn))

theorem accAt0_even (c : Dev nD) (t : Fin cfg0.N) (h : t.val % 2 = 0) :
    accAt0 V c t.val t.isLt = k0_pay2 (iblk0 V c 0 t) (iblk0 V c 1 t) (k0_pay1 (F := F)) := by
  obtain ⟨n, hn⟩ := t
  cases n with
  | zero => rfl
  | succ n => exact if_pos h

theorem accAt0_odd (c : Dev nD) (t : Fin cfg0.N) (h : t.val % 2 = 1) :
    accAt0 V c t.val t.isLt = k0_pay2 (iblk0 V c 0 t) (iblk0 V c 1 t)
      (accAt0 V c (t.val - 1) (Nat.lt_of_le_of_lt (Nat.sub_le _ _) t.isLt)) := by
  obtain ⟨n, hn⟩ := t
  cases n with
  | zero => simp at h
  | succ n => exact if_neg (by dsimp only at h ⊢; omega)

/-! ## The region's invariant -/

/-- The scoped buffers of the core that are neither a staging buffer of this region nor its scratch (the other region's
    staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The plain invariant, with the scratch as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-- The invariant before position `n`: before the first point the plain one (the scratch at anything); afterwards the
    scratch at what the point before left. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (accAt0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (accAt0 V c (n - 1) (by omega)) ∗ others0 c) ∗ (∃ r, prngReg c r)) := by
  cases n with
  | zero => exact absurd rfl hz
  | succ n => rfl

/-! ## The proof data -/

/-- The proof data of the region on core `c`: the arrays as the region finds them; after the body at point `t` each
    input's buffer at its block and the output's at the accumulator after `t`, re-laid (consulted at the odd positions
    only: at the even ones the window is idle); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 2000000 in
/-- The body at any point, by the parity of its position: the inputs' memrefs hold their blocks; the invariant hands
    the body the scratch (at anything before the first point, else at what the point before left) and takes it back at
    this point's contents; at an even position the output's buffer passes through untouched, at an odd one it is left
    at the accumulator, re-laid. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  by_cases h0 : t.val % 2 = 0
  · -- s = 0: reset, accumulate, the output idle
    have h1 : ¬ t.val % 2 = 1 := by omega
    rw [Dat.leavesExact_idle (dat0 V c) 2 t (idleAt0_2 t h0) (noFlush0_2 t h0)]
    rw [accAt0_even V c t h0]
    have hpre : (dat0 V c).Φ t.castSucc ⊢ (iprop(iprop((∃ d, owns (c : Thread nD τ) scM0 fullShare d) ∗ others0 c) ∗ (∃ r, prngReg c r)) : sProp 𝕄) := by
      rw [PhiS0_castSucc V c t]
      by_cases hz : t.val = 0
      · rw [PhiS0_zero V c _ _ hz, PhiA0_eq]
      · rw [PhiS0_pos V c _ _ hz]
        iintro ⟨⟨HS, Ho⟩, Hg⟩
        isplitr [Hg]
        · isplitl [HS]; · iexists _; iexact HS
          iexact Ho
        iexact Hg
    refine (sep_mono hpre .rfl).trans ?_
    iintro ⟨⟨⟨HS, Hoth⟩, Hg⟩, Ho, ⟨%d0, H0⟩, ⟨%d1, H1⟩, ⟨%d2, H2⟩⟩
    iapply (sound_kernel0_A c Set.univ (grid0.coords t) _ _ _ _ _ _ _ _ ((hcondReset t).mpr h0) (fun h => h1 ((hcondOut t).mp h))
      (iblk0 V c 0 t) (iblk0 V c 1 t) ((dat0 V c).before 2 t d2) _)
    isplitl [H0]; · iexact H0
    isplitl [H1]; · iexact H1
    isplitl [H2]; · iexact H2
    isplitl [HS]; · iexact HS
    iintro ⟨H0, H1, H2, HS⟩
    isplitl [HS Hoth Hg]
    · isplitr [Hg]
      · isplitl [HS]; · iexact HS
        iexact Hoth
      iexact Hg
    isplitl [Ho]; · iexact Ho
    isplitl [H0]; · iexact H0
    isplitl [H1]; · iexact H1
    iexists _; iexact H2
  · -- s = 1: accumulate onto what the point before left, copy out
    have h1 : t.val % 2 = 1 := by omega
    have hz : t.val ≠ 0 := by omega
    rw [show (dat0 V c).leavesExact 2 t = owns (c : Thread nD τ) (st0_2 t) fullShare ((dat0 V c).after 2 t) from by
      unfold Dat.leavesExact; rw [liveAt0_2 t h1], after0_2]
    rw [accAt0_odd V c t h1]
    rw [PhiS0_castSucc V c t, PhiS0_pos V c _ _ hz]
    iintro ⟨⟨⟨HS, Hoth⟩, Hg⟩, Ho, ⟨%d0, H0⟩, ⟨%d1, H1⟩, ⟨%d2, H2⟩⟩
    iapply (sound_kernel0_B c Set.univ (grid0.coords t) _ _ _ _ _ _ _ _ (fun h => h0 ((hcondReset t).mp h)) ((hcondOut t).mpr h1)
      (iblk0 V c 0 t) (iblk0 V c 1 t) (accAt0 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS Hoth Hg]
    · isplitr [Hg]
      · isplitl [HS]; · iexact HS
        iexact Hoth
      iexact Hg
    isplitl [Ho]; · iexact Ho
    isplitl [H0]; · iexact H0
    isplitl [H1]; · iexact H1
    iexact H2

/-- The region's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the plain one back: the scratch's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Ho⟩, Hg⟩
  isplitr [Hg]
  · isplitl [HS]; · iexists _; iexact HS
    iexact Ho
  iexact Hg

end Cert.KernelIdeal.Fr

end
-- ==== Proof.R1Body.lean ====
/-
  Region 1 of the program, the output kernel, at any float instance: at grid point (b, h, s) it reads the
  block (b, h, s, ·) of the query array and of the value array and the block (b, h, ·, ·) of the key-value
  product, and stores value + query · product into the block (b, h, s, ·) of the result. The body has one
  control path, so what it leaves in the output's staging buffer is one function of the three input blocks;
  the region's invariant is the plain one (the scoped buffers no window stages, at anything).
  Stated at a parameter `V`: the contents of the core's buffers when the region is entered.
-/
import proofs.«141568_j48155173323323_1_alg».proof.Proof.Gen.KernelIdeal.Launch
import proofs.«141568_j48155173323323_1_alg».proof.Proof.Gen.KernelIdeal.Skeleton
import proofs.«141568_j48155173323323_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or not: where it is not
    fetched the block index has not moved (the key-value product's block depends on (b, h) only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's two access rectangles: a whole [1,1,2048,128] buffer and a whole [1,1,128,128] buffer. -/
abbrev rBig : Rect S1x1x2048x128 := Rect.unit (s := S1x1x2048x128) ![0, 0, 0, 0] S1x1x2048x128.size inb_S1x1x2048x128_S1x1x2048x128_0_0_0_0
abbrev rSq : Rect S1x1x128x128 := Rect.unit (s := S1x1x128x128) ![0, 0, 0, 0] S1x1x128x128.size inb_S1x1x128x128_S1x1x128x128_0_0_0_0

/-- What the body leaves in the output's staging buffer, from the query block `xq`, the value block `xv` and the
    product block `xkv`: its one store, whose payload is value + query · product. -/
def out1_3 (xq : Vec F S1x1x2048x128 .f32) (xv : Vec F S1x1x2048x128 .f32) (xkv : Vec F S1x1x128x128 .f32) : Vec F S1x1x2048x128 .f32 :=
  View.canon [⟨rBig, k1_pay1 (View.ld xq rBig) (View.ld xkv rSq) (View.ld xv rBig)⟩]

/-- The one store is of the whole buffer. -/
theorem cover1_3 (p0 : Vec F S1x1x2048x128 .f32) (y : S1x1x2048x128.Idx) :
    ∃ pc ∈ ([⟨rBig, p0⟩] : List (View.Piece (Elt F) S1x1x2048x128 .f32)), y ∈ pc.1.set :=
  View.cover_of_tiled [⟨rBig, p0⟩] S1x1x2048x128.size (by rfl) y

set_option maxHeartbeats 1000000 in
/-- The body on whole staging memrefs, the inputs' at contents `xq`, `xv`, `xkv` and the output's at anything, runs to
    the inputs' as they were and the output's at `out1_3` of them. -/
theorem sound_kernel1 (c : Dev nD) (E : Set ℕ) (i : grid1.Coords)
    (arg3 : Memref sig .tc .vmem S1x1x2048x128 .f32) (harg3 : arg3.IsWhole) (arg4 : Memref sig .tc .vmem S1x1x2048x128 .f32) (harg4 : arg4.IsWhole)
    (arg5 : Memref sig .tc .vmem S1x1x128x128 .f32) (harg5 : arg5.IsWhole) (arg6 : Memref sig .tc .vmem S1x1x2048x128 .f32) (harg6 : arg6.IsWhole)
    (xq : Vec F S1x1x2048x128 .f32) (xv : Vec F S1x1x2048x128 .f32) (xkv : Vec F S1x1x128x128 .f32) (K : PUnit → sProp 𝕄) :
    iprop(owns (c : Thread nD τ) arg3 fullShare xq ∗ owns (c : Thread nD τ) arg4 fullShare xv ∗ owns (c : Thread nD τ) arg5 fullShare xkv
        ∗ (∃ d, owns (c : Thread nD τ) arg6 fullShare d)
        ∗ (iprop(owns (c : Thread nD τ) arg3 fullShare xq ∗ owns (c : Thread nD τ) arg4 fullShare xv ∗ owns (c : Thread nD τ) arg5 fullShare xkv
            ∗ owns (c : Thread nD τ) arg6 fullShare (out1_3 xq xv xkv)) -∗ K ⟨⟩))
      ⊢ wp frame (wpE (defs₀ (F := F)) Variants.none c none) E (cc1__out_kernel i arg3 harg3 arg4 harg4 arg5 harg5 arg6 harg6) K := by
  simp only [cc1__out_kernel_eq_skeleton]; unfold cc1__out_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the region on core `c`: the arrays as the region finds them; after the body at point `t` each
    input's buffer at its block and the output's at `out1_3` of the three blocks; the plain invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Run.lean ====
/-
  The run of the whole program at any float instance: @main is the two kernel regions, one after the other, with no
  host operation around them. The core's unscoped buffers hold, at launch, the memory `m`; after region 0, the same
  but for the key-value product's array, which holds what that region's write-backs leave; after region 1, the same
  but for the result's array, likewise. Each region is entered from "every unscoped buffer at the boundary's
  contents, the generator register at some state, nothing owed" and left at the next boundary's; the launch theorem
  for a program of several regions then gives: every weakly fair execution terminates, without a fault, and every
  unscoped buffer ends at the last boundary's contents. Read at the three arguments, which no region writes, that is
  the frame; read at the result's array, it names the result.
-/
import proofs.«141568_j48155173323323_1_alg».proof.Proof.R0Body
import proofs.«141568_j48155173323323_1_alg».proof.Proof.R1Body

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => m ((c : Dev nD), b)
/-- The same read at the TensorCore's references: what region 0 is entered from. -/
abbrev U0 : (c : Dev nD) → (b : Ref sig .tc) → Buf (Elt F) ((c : Thread nD τ).loc b) := fun c b => W0 m c b
/-- After region 0: its arrays at what the pipeline leaves, every other buffer as before. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What region 1 is entered from. -/
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After region 1. -/
def W2 (c : Dev nD) : Valuation τ sig (Elt F) :=
  Pipeline.withArrays spec1 c (W1 m c) fun w => (dat1 (U1 m) c).arrAt w cfg1.N
theorem W2_arr (c : Dev nD) (w : Fin cfg1.W) :
    W2 m c (Proc.devRef .tc (Pipeline.arrRef spec1 w)) = (dat1 (U1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev U2 : (c : Dev nD) → (b : Ref sig .tc) → Buf (Elt F) ((c : Thread nD τ).loc b) := fun c b => W2 m c b
theorem hF1 (c : Dev nD) (w : Fin cfg1.W) : (dat1 (U1 m) c).arrAt w cfg1.N = U2 m c (Pipeline.arrRef spec1 w) :=
  (W2_arr m c w).symm
theorem hrest1 (c : Dev nD) : ∀ b, b ∉ Finset.univ.image (Pipeline.arrRef spec1) → U2 m c b = U1 m c b :=
  fun b hb => W2_of_ne m c b fun w e => hb (Finset.mem_image.mpr ⟨w, Finset.mem_univ _, e⟩)

/-! ## What the boundaries hold at the arrays the claims read -/

/-- Region 1 finds the arguments as launched: region 0 reads the keys and the values through input windows and does
    not touch the queries; -/
theorem U1_main_arg0 (c : Dev nD) : U1 m c main_arg0 = m ((c : Thread nD τ).loc main_arg0) :=
  (W1_of_ne m c main_arg0 (by decide)).trans rfl
theorem U1_main_arg1 (c : Dev nD) : U1 m c main_arg1 = m ((c : Thread nD τ).loc main_arg1) :=
  (W1_arr m c 0).trans (((dat0 (U0 m) c).arrAt_in 0 rfl _).trans ((A_eq0 (U0 m) c 0).trans rfl))
theorem U1_main_arg2 (c : Dev nD) : U1 m c main_arg2 = m ((c : Thread nD τ).loc main_arg2) :=
  (W1_arr m c 1).trans (((dat0 (U0 m) c).arrAt_in 1 rfl _).trans ((A_eq0 (U0 m) c 1).trans rfl))
/-- and the key-value product's array at what region 0's write-backs leave. -/
theorem U1_main_v0 (c : Dev nD) : U1 m c main_v0 = (dat0 (U0 m) c).arrAt 2 cfg0.N := W1_arr m c 2

/-- At the end the arguments are as launched (region 1 reads the queries and the values through input windows and
    does not touch the keys), -/
theorem U2_main_arg0 (c : Dev nD) : U2 m c main_arg0 = m ((c : Thread nD τ).loc main_arg0) :=
  (W2_arr m c 0).trans (((dat1 (U1 m) c).arrAt_in 0 rfl _).trans ((A_eq1 (U1 m) c 0).trans (U1_main_arg0 m c)))
theorem U2_main_arg1 (c : Dev nD) : U2 m c main_arg1 = m ((c : Thread nD τ).loc main_arg1) :=
  (W2_of_ne m c main_arg1 (by decide)).trans (U1_main_arg1 m c)
theorem U2_main_arg2 (c : Dev nD) : U2 m c main_arg2 = m ((c : Thread nD τ).loc main_arg2) :=
  (W2_arr m c 1).trans (((dat1 (U1 m) c).arrAt_in 1 rfl _).trans ((A_eq1 (U1 m) c 1).trans (U1_main_arg2 m c)))
/-- and the result's array holds what region 1's write-backs leave. -/
theorem U2_main_v1 (c : Dev nD) : U2 m c main_v1 = (dat1 (U1 m) c).arrAt 3 cfg1.N := W2_arr m c 3

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- Region 0 over the thread state: entered from every unscoped buffer at the launch contents, left at `W1`. Its arrays
    are split out of the unscoped buffers and put back at the exit contents; the generator register and the scoped
    buffers no window stages go into the region's invariant (the scratch at anything) and come back out of it (the
    scratch's contents forgotten); nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (U0 m) c)
    unfold Pipeline.ΦA
    iintro ⟨Hp, -, Hr⟩
    isplitl [Hr]; · iexact Hr
    iexact Hp
  hout c := by
    rw [Pipeline.ownSems0_none]
    refine (hout0 (U0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`, which the launch reads
    at the end. Its invariant is the plain one. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's two segments. -/
abbrev segs : List (Pipeline.Seg (pcfgs (F := F)) adm (pdats m) () defs₀ 𝒱₀ L lv) :=
  [ .region (reg0 m), .region (reg1 m) ]

set_option backward.isDefEq.respectTransparency.types false in
/-- THE RUN: from any memory with zero counters, every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun _ h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (U2_main_arg0 m c),
     (h c _ (mem_uc main_arg1 (by decide))).trans (U2_main_arg1 m c),
     (h c _ (mem_uc main_arg2 (by decide))).trans (U2_main_arg2 m c)⟩) (run_all m ρ)

/-- THE RESULT NAMED: besides, the result's array ends at what region 1's write-backs leave, region 1 entered from
    the launch contents but for the key-value product's array at what region 0's write-backs leave. -/
theorem run_value : θ_run defs (onTc (τ := τ) (main (F := F))) ⟨m, fun _ => 0, ρ⟩ (fun r => ∀ c : Dev nD,
      r.2.mem ((c.tc : Thread nD τ).loc main_v1) = (dat1 (U1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (U2_main_v1 m c),
     (h c _ (mem_uc main_arg0 (by decide))).trans (U2_main_arg0 m c),
     (h c _ (mem_uc main_arg1 (by decide))).trans (U2_main_arg1 m c),
     (h c _ (mem_uc main_arg2 (by decide))).trans (U2_main_arg2 m c)⟩) (run_all m ρ)

end Cert.KernelIdeal.Fr

end
-- ==== Proof.Spec.lean ====
/-
  What the two programs compute, as functions of the argument arrays over the extended reals, index by index.
  With q, k, v of shape [2, 16, 4096, 128]:
    kv[b, h, d, e]  = sum over s < 4096 of k[b, h, s, d] * v[b, h, s, e]
    out[b, h, s, e] = v[b, h, s, e] + sum over d < 128 of q[b, h, s, d] * kv[b, h, d, e].
  The kernel forms the first sum in two halves of 2048 rows, the first added to zero: the one law needed is that a sum
  over 4096 indices is the sum over the lower 2048 plus the sum over the upper 2048, which holds in any commutative
  additive monoid, the extended reals among them, with no finiteness assumption.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The shape of q, k, v and of the result; the shape of the key-value product. -/
abbrev SBig : Shape := ⟨4, ![2, 16, 4096, 128]⟩
abbrev SKV : Shape := ⟨4, ![2, 16, 128, 128]⟩

/-- The key-value product at (b, h, d, e): the keys' column d against the values' column e, over all 4096 rows. -/
def kvSpec (k v : SBig.Idx → EReal) (b : Fin 2) (h : Fin 16) (d e : Fin 128) : EReal :=
  ∑ s : Fin 4096, k (ix4 b h s d) * v (ix4 b h s e)

/-- The result at (b, h, s, e): the value there plus the query's row s against the product's column e. -/
def outSpec (q v : SBig.Idx → EReal) (kv : SKV.Idx → EReal) (b : Fin 2) (h : Fin 16) (s : Fin 4096) (e : Fin 128) : EReal :=
  v (ix4 b h s e) + ∑ d : Fin 128, q (ix4 b h s d) * kv (ix4 b h d e)

/-- The same as whole arrays. -/
def kvArr (k v : SBig.Idx → EReal) : SKV.Idx → EReal := fun j => kvSpec k v (j 0) (j 1) (j 2) (j 3)
def outArr (q v : SBig.Idx → EReal) (kv : SKV.Idx → EReal) : SBig.Idx → EReal := fun i => outSpec q v kv (i 0) (i 1) (i 2) (i 3)

theorem kvArr_apply (k v : SBig.Idx → EReal) (b : Fin 2) (h : Fin 16) (d e : Fin 128) :
    kvArr k v (ix4 b h d e) = kvSpec k v b h d e := rfl
theorem outArr_apply (q v : SBig.Idx → EReal) (kv : SKV.Idx → EReal) (b : Fin 2) (h : Fin 16) (s : Fin 4096) (e : Fin 128) :
    outArr q v kv (ix4 b h s e) = outSpec q v kv b h s e := rfl

/-- A row index of the lower half, and of the upper half, of the 4096 rows. -/
def lo (s : Fin 2048) : Fin 4096 := ⟨s.val, by omega⟩
def hi (s : Fin 2048) : Fin 4096 := ⟨2048 + s.val, by omega⟩

/-- A sum over the 4096 rows is the sum over the lower 2048 plus the sum over the upper 2048. -/
theorem sum_halves {M : Type*} [AddCommMonoid M] (f : Fin 4096 → M) :
    ∑ s : Fin 4096, f s = (∑ s : Fin 2048, f (lo s)) + ∑ s : Fin 2048, f (hi s) := by
  exact Fin.sum_univ_add (a := 2048) (b := 2048) (f : Fin (2048 + 2048) → M)

/-- The kernel's accumulation: zero plus the lower half, then plus the upper half, is the whole sum. -/
theorem sum_two_steps {M : Type*} [AddCommMonoid M] (f : Fin 4096 → M) :
    (0 + ∑ s : Fin 2048, f (lo s)) + ∑ s : Fin 2048, f (hi s) = ∑ s : Fin 4096, f s := by
  rw [zero_add, sum_halves]

end Cert.Spec

end
-- ==== Proof.Val0.lean ====
/-
  What region 0 leaves in the key-value product's array at the ideal values: the specification's product, of the key
  and value arrays the region finds. The block (b, h, ·, ·) is written back at the odd position t of (b, h, s = 1) and
  holds the accumulator after t: one step from what the even position t - 1 of (b, h, s = 0) left, which is one step from
  zero. A step adds, at (d, e), the sum over the 2048 rows r of the point's key block at (r, d) times its value block at
  (r, e); the blocks of t - 1 are rows 0 .. 2047 of (b, h) and those of t rows 2048 .. 4095, so the accumulator at
  (d, e) is zero plus the lower half of the specification's sum plus its upper half: the whole sum, in any commutative
  additive monoid. The written-back blocks tile the array.
-/
import proofs.«141568_j48155173323323_1_alg».proof.Proof.R0Body
import proofs.«141568_j48155173323323_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.Spec

/-! ## The body's matrix product at an index -/

theorem lhsD_0 (i : S128x128.Idx) (q : dot_S2048x128_S2048x128_S128x128_0_0_1_1_n_n.contr.Idx) :
    (dot_S2048x128_S2048x128_S128x128_0_0_1_1_n_n.lhsIdx i q 0).val = (q ⟨0, by decide⟩).val :=
  dot_S2048x128_S2048x128_S128x128_0_0_1_1_n_n.lhsIdx_val_of_single rfl i q
theorem lhsD_1 (i : S128x128.Idx) (q : dot_S2048x128_S2048x128_S128x128_0_0_1_1_n_n.contr.Idx) :
    (dot_S2048x128_S2048x128_S128x128_0_0_1_1_n_n.lhsIdx i q 1).val = (i 0).val := by
  unfold DotDims.lhsIdx
  rw [dif_neg (show ¬(1 : Fin S2048x128.rank) ∈ dot_S2048x128_S2048x128_S128x128_0_0_1_1_n_n.lhsBatch by decide), dif_pos (show (1 : Fin S2048x128.rank) ∈ dot_S2048x128_S2048x128_S128x128_0_0_1_1_n_n.lhsNonContracting by decide)]
  rfl
theorem rhsD_0 (i : S128x128.Idx) (q : dot_S2048x128_S2048x128_S128x128_0_0_1_1_n_n.contr.Idx) :
    (dot_S2048x128_S2048x128_S128x128_0_0_1_1_n_n.rhsIdx i q 0).val = (q ⟨0, by decide⟩).val :=
  dot_S2048x128_S2048x128_S128x128_0_0_1_1_n_n.rhsIdx_val_of_single rfl i q
theorem rhsD_1 (i : S128x128.Idx) (q : dot_S2048x128_S2048x128_S128x128_0_0_1_1_n_n.contr.Idx) :
    (dot_S2048x128_S2048x128_S128x128_0_0_1_1_n_n.rhsIdx i q 1).val = (i 1).val := by
  unfold DotDims.rhsIdx
  rw [dif_neg (show ¬(1 : Fin S2048x128.rank) ∈ dot_S2048x128_S2048x128_S128x128_0_0_1_1_n_n.rhsBatch by decide), dif_pos (show (1 : Fin S2048x128.rank) ∈ dot_S2048x128_S2048x128_S128x128_0_0_1_1_n_n.rhsNonContracting by decide)]
  rfl

/-- Columns against columns over the 2048 rows, into the zero accumulator: entry (d, e) is the sum over r of
    l(r, d) r(r, e). -/
theorem mm_apply (l r : FVec Ideal S2048x128 .bf16) (d e : Fin 128) :
    matmul dot_S2048x128_S2048x128_S128x128_0_0_1_1_n_n none l r (constant (F := Ideal) S128x128 .f32 0x00000000#32) (ix2 d e)
      = ∑ s : Fin 2048, l (ix2 s d) * r (ix2 s e) := by
  simp only [matmul]
  rw [Ideal.matmul_constant_zero_apply, ← Equiv.sum_comp (contrEquiv1 dot_S2048x128_S2048x128_S128x128_0_0_1_1_n_n 2048 rfl rfl).symm]
  refine Finset.sum_congr rfl fun k _ => ?_
  have hk := contrEquiv1_symm_val dot_S2048x128_S2048x128_S128x128_0_0_1_1_n_n 2048 rfl rfl k
  have el : dot_S2048x128_S2048x128_S128x128_0_0_1_1_n_n.lhsIdx (ix2 d e) ((contrEquiv1 dot_S2048x128_S2048x128_S128x128_0_0_1_1_n_n 2048 rfl rfl).symm k) = ix2 k d := funext fun a => Fin.ext (by
    match a with
    | ⟨0, _⟩ => exact (lhsD_0 _ _).trans hk
    | ⟨1, _⟩ => exact lhsD_1 _ _)
  have er : dot_S2048x128_S2048x128_S128x128_0_0_1_1_n_n.rhsIdx (ix2 d e) ((contrEquiv1 dot_S2048x128_S2048x128_S128x128_0_0_1_1_n_n 2048 rfl rfl).symm k) = ix2 k e := funext fun a => Fin.ext (by
    match a with
    | ⟨0, _⟩ => exact (rhsD_0 _ _).trans hk
    | ⟨1, _⟩ => exact rhsD_1 _ _)
  rw [el, er]

/-! ## The re-layings and the three payloads at an index -/

theorem castBig (x : Vec Ideal S1x1x2048x128 .f32) (a b : Fin 1) (s : Fin 2048) (e : Fin 128) :
    shapeCast S2048x128 x shapeCasts_S1x1x2048x128_S2048x128 (ix2 s e) = x (ix4 a b s e) := by
  refine shapeCast_apply _ _ _ _ ?_
  rw [Shape.rowMajor_val_four, Shape.rowMajor_val_two]
  have ha : a.val = 0 := by omega
  have hb : b.val = 0 := by omega
  show ((a.val * 1 + b.val) * 2048 + s.val) * 128 + e.val = s.val * 128 + e.val
  rw [ha, hb]; omega
theorem castOut (y : Vec Ideal S128x128 .f32) (a b : Fin 1) (d e : Fin 128) :
    shapeCast S1x1x128x128 y shapeCasts_S128x128_S1x1x128x128 (ix4 a b d e) = y (ix2 d e) := by
  refine shapeCast_apply _ _ _ _ ?_
  rw [Shape.rowMajor_val_four, Shape.rowMajor_val_two]
  have ha : a.val = 0 := by omega
  have hb : b.val = 0 := by omega
  show d.val * 128 + e.val = ((a.val * 1 + b.val) * 128 + d.val) * 128 + e.val
  rw [ha, hb]; omega

/-- The reset's payload is zero everywhere. -/
theorem pay1_apply (j : S128x128.Idx) : k0_pay1 (F := Ideal) j = 0 := by
  unfold k0_pay1
  rw [shapeCast_self]
  show Ideal.ofBits .f32 0x00000000#32 = 0
  exact Ideal.ofBits_zero_f32

/-- One accumulation step at (d, e): the accumulator there plus the key block's column d against the value block's
    column e. -/
theorem pay2_apply (xk xv : Vec Ideal S1x1x2048x128 .f32) (acc : Vec Ideal S128x128 .f32) (a b : Fin 1) (d e : Fin 128) :
    k0_pay2 (F := Ideal) xk xv acc (ix2 d e) = acc (ix2 d e) + ∑ s : Fin 2048, xk (ix4 a b s d) * xv (ix4 a b s e) := by
  unfold k0_pay2
  rw [shapeCast_self]
  refine (addf_apply _ _ _).trans ?_
  rw [mm_apply]
  refine congrArg (acc (ix2 d e) + ·) (Finset.sum_congr rfl fun s _ => ?_)
  rw [truncf_apply, truncf_apply, castBig xk a b s d, castBig xv a b s e]

/-- The copy out is a re-laying. -/
theorem pay3_apply (acc : Vec Ideal S128x128 .f32) (a b : Fin 1) (d e : Fin 128) :
    k0_pay3 (F := Ideal) acc (ix4 a b d e) = acc (ix2 d e) := by
  unfold k0_pay3
  exact castOut acc a b d e

/-! ## From blocks to the array -/

variable (V : (c : Dev nD) → (b : Ref sig .tc) → Buf (Elt Ideal) ((c : Thread nD τ).loc b))

/-- The three windows' block indices in closed form, decided over the grid: position t is (b, h, s) with b = t / 32,
    h = t / 2 mod 16, s = t mod 2; the inputs' blocks are (b, h, s, 0), the output's (b, h, 0, 0). -/
theorem idx_facts : ∀ t : Fin cfg0.N,
    win0_0.index t (0 : Fin 4) = t.val / 32 ∧ win0_0.index t (1 : Fin 4) = t.val / 2 % 16
    ∧ win0_0.index t (2 : Fin 4) = t.val % 2 ∧ win0_0.index t (3 : Fin 4) = 0
    ∧ win0_1.index t (0 : Fin 4) = t.val / 32 ∧ win0_1.index t (1 : Fin 4) = t.val / 2 % 16
    ∧ win0_1.index t (2 : Fin 4) = t.val % 2 ∧ win0_1.index t (3 : Fin 4) = 0
    ∧ win0_2.index t (0 : Fin 4) = t.val / 32 ∧ win0_2.index t (1 : Fin 4) = t.val / 2 % 16
    ∧ win0_2.index t (2 : Fin 4) = 0 ∧ win0_2.index t (3 : Fin 4) = 0 :=
  (by decide +kernel : ∀ t : Fin grid0.N, _)

/-- An input block read at (r, x): the array at (b, h, 2048 s + r, x). -/
theorem iblk_k (c : Dev nD) (t : Fin cfg0.N) (a b : Fin 1) (r : Fin 2048) (x : Fin 128) (B : Fin 2) (H : Fin 16) (R : Fin 4096)
    (hB : B.val = t.val / 32) (hH : H.val = t.val / 2 % 16) (hR : R.val = t.val % 2 * 2048 + r.val) :
    iblk0 V c 0 t (ix4 a b r x) = V c main_arg1 (ix4 B H R x) := by
  obtain ⟨e00, e01, e02, e03, -⟩ := idx_facts t
  show V c main_arg1 (((cfg0.win 0).blk t).view.emb (ix4 a b r x)) = _
  refine congrArg _ (funext fun y => Fin.ext ?_)
  have ha : a.val = 0 := by omega
  have hb : b.val = 0 := by omega
  match y with
  | ⟨0, _⟩ => show win0_0.index t (0 : Fin 4) * 1 + 1 * a.val = B.val; omega
  | ⟨1, _⟩ => show win0_0.index t (1 : Fin 4) * 1 + 1 * b.val = H.val; omega
  | ⟨2, _⟩ => show win0_0.index t (2 : Fin 4) * 2048 + 1 * r.val = R.val; omega
  | ⟨3, _⟩ => show win0_0.index t (3 : Fin 4) * 128 + 1 * x.val = x.val; omega
theorem iblk_v (c : Dev nD) (t : Fin cfg0.N) (a b : Fin 1) (r : Fin 2048) (x : Fin 128) (B : Fin 2) (H : Fin 16) (R : Fin 4096)
    (hB : B.val = t.val / 32) (hH : H.val = t.val / 2 % 16) (hR : R.val = t.val % 2 * 2048 + r.val) :
    iblk0 V c 1 t (ix4 a b r x) = V c main_arg2 (ix4 B H R x) := by
  obtain ⟨-, -, -, -, e10, e11, e12, e13, -⟩ := idx_facts t
  show V c main_arg2 (((cfg0.win 1).blk t).view.emb (ix4 a b r x)) = _
  refine congrArg _ (funext fun y => Fin.ext ?_)
  have ha : a.val = 0 := by omega
  have hb : b.val = 0 := by omega
  match y with
  | ⟨0, _⟩ => show win0_1.index t (0 : Fin 4) * 1 + 1 * a.val = B.val; omega
  | ⟨1, _⟩ => show win0_1.index t (1 : Fin 4) * 1 + 1 * b.val = H.val; omega
  | ⟨2, _⟩ => show win0_1.index t (2 : Fin 4) * 2048 + 1 * r.val = R.val; omega
  | ⟨3, _⟩ => show win0_1.index t (3 : Fin 4) * 128 + 1 * x.val = x.val; omega

/-- WHAT AN ODD POINT t WRITES BACK, at (d, e) of its block: the specification's product at the array index under it. -/
theorem flushed_apply (c : Dev nD) (t : Fin cfg0.N) (ht : t.val % 2 = 1) (a b : Fin 1) (d e : Fin 128) :
    (dat0 V c).flushed 2 t (ix4 a b d e)
      = kvArr (V c main_arg1) (V c main_arg2) (((cfg0.win 2).blk t).view.emb (ix4 a b d e)) := by
  have hN : t.val < 64 := lt_of_lt_of_eq t.isLt (show cfg0.N = 64 from N_0)
  have hlt : t.val - 1 < cfg0.N := Nat.lt_of_le_of_lt (Nat.sub_le _ _) t.isLt
  obtain ⟨-, -, -, -, -, -, -, -, e20, e21, e22, e23⟩ := idx_facts t
  show (cfg0.win 2).cut (grid0.coords t) ((dat0 V c).after 2 t) (ix4 a b d e) = _
  rw [after0_2, accAt0_odd V c t ht]
  have e2 : accAt0 V c (t.val - 1) hlt = k0_pay2 (iblk0 V c 0 ⟨t.val - 1, hlt⟩) (iblk0 V c 1 ⟨t.val - 1, hlt⟩) (k0_pay1 (F := Ideal)) :=
    accAt0_even V c ⟨t.val - 1, hlt⟩ (by show (t.val - 1) % 2 = 0; omega)
  rw [e2]
  refine (pay3_apply _ a b d e).trans ?_
  refine (pay2_apply _ _ _ a b d e).trans ?_
  rw [pay2_apply _ _ _ a b d e, pay1_apply]
  -- the array index under (d, e), in coordinates
  have hE0 : (((cfg0.win 2).blk t).view.emb (ix4 a b d e) 0).val = t.val / 32 := by
    show win0_2.index t (0 : Fin 4) * 1 + 1 * a.val = _; have ha : a.val = 0 := by omega
    omega
  have hE1 : (((cfg0.win 2).blk t).view.emb (ix4 a b d e) 1).val = t.val / 2 % 16 := by
    show win0_2.index t (1 : Fin 4) * 1 + 1 * b.val = _; have hb : b.val = 0 := by omega
    omega
  have hE2 : (((cfg0.win 2).blk t).view.emb (ix4 a b d e) 2).val = d.val := by
    show win0_2.index t (2 : Fin 4) * 128 + 1 * d.val = _; omega
  have hE3 : (((cfg0.win 2).blk t).view.emb (ix4 a b d e) 3).val = e.val := by
    show win0_2.index t (3 : Fin 4) * 128 + 1 * e.val = _; omega
  show _ = kvSpec (V c main_arg1) (V c main_arg2) (((cfg0.win 2).blk t).view.emb (ix4 a b d e) 0) (((cfg0.win 2).blk t).view.emb (ix4 a b d e) 1)
      (((cfg0.win 2).blk t).view.emb (ix4 a b d e) 2) (((cfg0.win 2).blk t).view.emb (ix4 a b d e) 3)
  unfold kvSpec
  rw [← sum_two_steps]
  refine congrArg₂ (· + ·) (congrArg (0 + ·) (Finset.sum_congr rfl fun s _ => ?_)) (Finset.sum_congr rfl fun s _ => ?_)
  · rw [iblk_k V c ⟨t.val - 1, hlt⟩ a b s d ⟨t.val / 32, by omega⟩ ⟨t.val / 2 % 16, by omega⟩ (lo s)
        (by show t.val / 32 = (t.val - 1) / 32; omega) (by show t.val / 2 % 16 = (t.val - 1) / 2 % 16; omega)
        (by show s.val = (t.val - 1) % 2 * 2048 + s.val; omega),
      iblk_v V c ⟨t.val - 1, hlt⟩ a b s e ⟨t.val / 32, by omega⟩ ⟨t.val / 2 % 16, by omega⟩ (lo s)
        (by show t.val / 32 = (t.val - 1) / 32; omega) (by show t.val / 2 % 16 = (t.val - 1) / 2 % 16; omega)
        (by show s.val = (t.val - 1) % 2 * 2048 + s.val; omega)]
    refine congrArg₂ (· * ·) (congrArg _ (funext fun y => Fin.ext ?_)) (congrArg _ (funext fun y => Fin.ext ?_))
    · match y with
      | ⟨0, _⟩ => exact hE0.symm
      | ⟨1, _⟩ => exact hE1.symm
      | ⟨2, _⟩ => rfl
      | ⟨3, _⟩ => exact hE2.symm
    · match y with
      | ⟨0, _⟩ => exact hE0.symm
      | ⟨1, _⟩ => exact hE1.symm
      | ⟨2, _⟩ => rfl
      | ⟨3, _⟩ => exact hE3.symm
  · rw [iblk_k V c t a b s d ⟨t.val / 32, by omega⟩ ⟨t.val / 2 % 16, by omega⟩ (hi s) rfl rfl
        (by show 2048 + s.val = t.val % 2 * 2048 + s.val; omega),
      iblk_v V c t a b s e ⟨t.val / 32, by omega⟩ ⟨t.val / 2 % 16, by omega⟩ (hi s) rfl rfl
        (by show 2048 + s.val = t.val % 2 * 2048 + s.val; omega)]
    refine congrArg₂ (· * ·) (congrArg _ (funext fun y => Fin.ext ?_)) (congrArg _ (funext fun y => Fin.ext ?_))
    · match y with
      | ⟨0, _⟩ => exact hE0.symm
      | ⟨1, _⟩ => exact hE1.symm
      | ⟨2, _⟩ => rfl
      | ⟨3, _⟩ => exact hE2.symm
    · match y with
      | ⟨0, _⟩ => exact hE0.symm
      | ⟨1, _⟩ => exact hE1.symm
      | ⟨2, _⟩ => rfl
      | ⟨3, _⟩ => exact hE3.symm

/-- The same as an equation of blocks. -/
theorem flushed_eq (c : Dev nD) (t : Fin cfg0.N) (hf : (cfg0.win 2).flush t = true) :
    (dat0 V c).flushed 2 t = ((cfg0.win 2).blk t).view.read (Elt Ideal) (kvArr (V c main_arg1) (V c main_arg2)) := by
  have ht : t.val % 2 = 1 := (flush0_2 t).mp hf
  funext j
  have hj : j = ix4 (n0 := 1) (n1 := 1) (n2 := 128) (n3 := 128) (j 0) (j 1) (j 2) (j 3) := eq_ix4 j
  rw [hj]
  exact flushed_apply V c t ht (j 0) (j 1) (j 2) (j 3)

/-- An index of the product's array is in point t's block iff each coordinate is in the block's range on its axis. -/
theorem mem_blk (t : Fin cfg0.N) (i : S2x16x128x128.Idx) :
    i ∈ ((cfg0.win 2).blk t).view.set ↔ ∀ a : Fin 4, win0_2.index t a * S1x1x128x128.size a ≤ (i a).val ∧ (i a).val < win0_2.index t a * S1x1x128x128.size a + S1x1x128x128.size a := by
  show i ∈ ((View.whole main_v0).slice (win0_2.rect t)).set ↔ _
  rw [View.set_slice_whole, Rect.mem_set_unit]
  exact Iff.rfl

/-- Every index (b, h, d, e) of the product's array is in the block of the odd position 32 b + 2 h + 1, which writes
    it back. -/
theorem cover (i : S2x16x128x128.Idx) :
    ∃ t : Fin cfg0.N, (cfg0.win 2).flush t = true ∧ i ∈ ((cfg0.win 2).blk t).view.set := by
  have b0 : (i 0).val < 2 := (i 0).isLt
  have b1 : (i 1).val < 16 := (i 1).isLt
  have b2 : (i 2).val < 128 := (i 2).isLt
  have b3 : (i 3).val < 128 := (i 3).isLt
  have hN : cfg0.N = 64 := N_0
  let t : Fin cfg0.N := ⟨32 * (i 0).val + 2 * (i 1).val + 1, by omega⟩
  obtain ⟨-, -, -, -, -, -, -, -, e20, e21, e22, e23⟩ := idx_facts t
  have tv : t.val = 32 * (i 0).val + 2 * (i 1).val + 1 := rfl
  refine ⟨t, (flush0_2 t).mpr (by omega), ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 128 ≤ (i 2).val ∧ (i 2).val < win0_2.index t (2 : Fin 4) * 128 + 128; omega
  | ⟨3, _⟩ => show win0_2.index t (3 : Fin 4) * 128 ≤ (i 3).val ∧ (i 3).val < win0_2.index t (3 : Fin 4) * 128 + 128; omega

/-- THE PRODUCT'S ARRAY after region 0: the specification's key-value product of the keys and the values as the region
    finds them. -/
theorem kv_value (c : Dev nD) :
    (dat0 V c).arrAt 2 cfg0.N = kvArr (V c main_arg1) (V c main_arg2) :=
  (dat0 V c).arrAt_eq_of_cover 2 _ (fun t hf => flushed_eq V c t hf) cover

end Cert.KernelIdeal.Val0

end
-- ==== Proof.Val1.lean ====
/-
  What region 1 leaves in the result's array at the ideal values: the specification's result, of the arrays the region
  finds. At point (b, h, s) the body's payload at row r and column e of its 2048 x 128 block is the value block there plus
  the sum over d < 128 of the query block at (r, d) times the product block at (d, e): the two conversions to a narrower
  float format are the identity on the extended reals and the matrix product into a zero accumulator is the plain sum.
  The query, value and result windows all move with (b, h, s), the product's with (b, h) alone, so the payload at
  (r, e) is the specification at row 2048 s + r. Every point writes its block back and the blocks tile the array.
-/
import proofs.«141568_j48155173323323_1_alg».proof.Proof.R1Body
import proofs.«141568_j48155173323323_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.Spec

/-! ## The body's matrix product at an index -/

theorem lhsD_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhsD_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhsD_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhsD_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- Rows times columns into the zero accumulator: entry (r, e) is the sum over d of l(r, d) r(d, e). -/
theorem mm_apply (l : FVec Ideal S2048x128 .bf16) (r : FVec Ideal S128x128 .bf16) (s : Fin 2048) (e : Fin 128) :
    matmul dot_S2048x128_S128x128_S2048x128_1_0_0_1_n_n none l r (constant (F := Ideal) S2048x128 .f32 0x00000000#32) (ix2 s e)
      = ∑ d : Fin 128, l (ix2 s d) * r (ix2 d e) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 s e) ((contrEquiv1 dot_S2048x128_S128x128_S2048x128_1_0_0_1_n_n 128 rfl rfl).symm k) = ix2 s k := funext fun a => Fin.ext (by
    match a with
    | ⟨0, _⟩ => exact lhsD_0 _ _
    | ⟨1, _⟩ => exact (lhsD_1 _ _).trans hk)
  have er : dot_S2048x128_S128x128_S2048x128_1_0_0_1_n_n.rhsIdx (ix2 s e) ((contrEquiv1 dot_S2048x128_S128x128_S2048x128_1_0_0_1_n_n 128 rfl rfl).symm k) = ix2 k e := funext fun a => Fin.ext (by
    match a with
    | ⟨0, _⟩ => exact (rhsD_0 _ _).trans hk
    | ⟨1, _⟩ => exact rhsD_1 _ _)
  rw [el, er]

/-! ## The re-layings at an index -/

theorem castBig (x : Vec Ideal S1x1x2048x128 .f32) (a b : Fin 1) (s : Fin 2048) (e : Fin 128) :
    shapeCast S2048x128 x shapeCasts_S1x1x2048x128_S2048x128 (ix2 s e) = x (ix4 a b s e) := by
  refine shapeCast_apply _ _ _ _ ?_
  rw [Shape.rowMajor_val_four, Shape.rowMajor_val_two]
  have ha : a.val = 0 := by omega
  have hb : b.val = 0 := by omega
  show ((a.val * 1 + b.val) * 2048 + s.val) * 128 + e.val = s.val * 128 + e.val
  rw [ha, hb]; omega
theorem castSq (x : Vec Ideal S1x1x128x128 .f32) (a b : Fin 1) (d e : Fin 128) :
    shapeCast S128x128 x shapeCasts_S1x1x128x128_S128x128 (ix2 d e) = x (ix4 a b d e) := by
  refine shapeCast_apply _ _ _ _ ?_
  rw [Shape.rowMajor_val_four, Shape.rowMajor_val_two]
  have ha : a.val = 0 := by omega
  have hb : b.val = 0 := by omega
  show ((a.val * 1 + b.val) * 128 + d.val) * 128 + e.val = d.val * 128 + e.val
  rw [ha, hb]; omega
theorem castBack (y : FVec Ideal S2048x128 .f32) (a b : Fin 1) (s : Fin 2048) (e : Fin 128) :
    shapeCast S1x1x2048x128 y shapeCasts_S2048x128_S1x1x2048x128 (ix4 a b s e) = y (ix2 s e) := by
  refine shapeCast_apply _ _ _ _ ?_
  rw [Shape.rowMajor_val_four, Shape.rowMajor_val_two]
  have ha : a.val = 0 := by omega
  have hb : b.val = 0 := by omega
  show s.val * 128 + e.val = ((a.val * 1 + b.val) * 2048 + s.val) * 128 + e.val
  rw [ha, hb]; omega

/-- The body's payload at row s, column e of its block: the value there plus query row s against product column e. -/
theorem pay_apply (xq xv : Vec Ideal S1x1x2048x128 .f32) (xkv : Vec Ideal S1x1x128x128 .f32) (a b : Fin 1) (s : Fin 2048) (e : Fin 128) :
    k1_pay1 (F := Ideal) xq xkv xv (ix4 a b s e)
      = xv (ix4 a b s e) + ∑ d : Fin 128, xq (ix4 a b s d) * xkv (ix4 a b d e) := by
  unfold k1_pay1
  refine (castBack _ a b s e).trans ?_
  refine (addf_apply _ _ _).trans ?_
  rw [castBig xv a b s e, mm_apply]
  refine congrArg (xv (ix4 a b s e) + ·) (Finset.sum_congr rfl fun d _ => ?_)
  rw [truncf_apply, truncf_apply, castBig xq a b s d, castSq xkv a b d e]

/-! ## From blocks to the array -/

variable (V : (c : Dev nD) → (b : Ref sig .tc) → Buf (Elt Ideal) ((c : Thread nD τ).loc b))

theorem hz4 : (![0, 0, 0, 0] : Fin 4 → Nat) = fun _ => 0 := by
  funext a; match a with | ⟨0, _⟩ => rfl | ⟨1, _⟩ => rfl | ⟨2, _⟩ => rfl | ⟨3, _⟩ => rfl

/-- The four windows' block indices, decided over the grid: the query, value and result windows move together with
    (b, h, s) and sit at column block 0; the product's window moves with (b, h) and sits at row and column block 0. -/
theorem idx_facts : ∀ t : Fin cfg1.N,
    win1_0.index t (0 : Fin 4) = win1_3.index t (0 : Fin 4) ∧ win1_0.index t (1 : Fin 4) = win1_3.index t (1 : Fin 4)
    ∧ win1_0.index t (2 : Fin 4) = win1_3.index t (2 : Fin 4) ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = win1_3.index t (2 : Fin 4) ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (0 : Fin 4) < 2 ∧ win1_3.index t (1 : Fin 4) < 16 ∧ win1_3.index t (2 : Fin 4) < 2
    ∧ win1_3.index t (3 : Fin 4) = 0 :=
  (by decide +kernel : ∀ t : Fin grid1.N, _)

/-- Every block of the result is some point's. -/
theorem idx_onto : ∀ (q0 : Fin 2) (q1 : Fin 16) (q2 : Fin 2), ∃ t : Fin cfg1.N, win1_3.index t = ![q0.val, q1.val, q2.val, 0] :=
  (by decide +kernel : ∀ (q0 : Fin 2) (q1 : Fin 16) (q2 : Fin 2), ∃ t : Fin grid1.N, win1_3.index t = ![q0.val, q1.val, q2.val, 0])

/-- WHAT POINT t WRITES BACK, at row s and column e of its block: the specification's result at the array index
    under it. -/
theorem flushed_apply (c : Dev nD) (t : Fin cfg1.N) (a b : Fin 1) (s : Fin 2048) (e : Fin 128) :
    (dat1 V c).flushed 3 t (ix4 a b s e)
      = outArr (V c main_arg0) (V c main_arg2) (V c main_v0) (((cfg1.win 3).blk t).view.emb (ix4 a b s e)) := by
  show (cfg1.win 3).cut (grid1.coords t) ((dat1 V c).after 3 t) (ix4 a b s e) = _
  rw [after1_3]
  unfold out1_3
  rw [View.canon_unit_zero hz4]
  simp only [View.ld_unit_zero (S := S1x1x2048x128) hz4, View.ld_unit_zero (S := S1x1x128x128) hz4]
  refine (pay_apply (iblk1 V c 0 t) (iblk1 V c 1 t) (iblk1 V c 2 t) a b s e).trans ?_
  obtain ⟨e00, e01, e02, e03, e10, e11, e12, e13, e20, e21, e22, e23, l0, l1, l2, e33⟩ := idx_facts t
  have h1 : ((cfg1.win 1).blk t).view.emb (ix4 a b s e) = ((cfg1.win 3).blk t).view.emb (ix4 a b s e) := by
    funext x; apply Fin.ext
    match x with
    | ⟨0, _⟩ => show win1_1.index t (0 : Fin 4) * 1 + 1 * a.val = win1_3.index t (0 : Fin 4) * 1 + 1 * a.val; omega
    | ⟨1, _⟩ => show win1_1.index t (1 : Fin 4) * 1 + 1 * b.val = win1_3.index t (1 : Fin 4) * 1 + 1 * b.val; omega
    | ⟨2, _⟩ => show win1_1.index t (2 : Fin 4) * 2048 + 1 * s.val = win1_3.index t (2 : Fin 4) * 2048 + 1 * s.val; omega
    | ⟨3, _⟩ => show win1_1.index t (3 : Fin 4) * 128 + 1 * e.val = win1_3.index t (3 : Fin 4) * 128 + 1 * e.val; omega
  have h0 : ∀ d : Fin 128, ((cfg1.win 0).blk t).view.emb (ix4 a b s d)
      = ix4 (n0 := 2) (n1 := 16) (n2 := 4096) (n3 := 128) (((cfg1.win 3).blk t).view.emb (ix4 a b s e) 0) (((cfg1.win 3).blk t).view.emb (ix4 a b s e) 1)
          (((cfg1.win 3).blk t).view.emb (ix4 a b s e) 2) d := by
    intro d; funext x; apply Fin.ext
    match x with
    | ⟨0, _⟩ => show win1_0.index t (0 : Fin 4) * 1 + 1 * a.val = win1_3.index t (0 : Fin 4) * 1 + 1 * a.val; omega
    | ⟨1, _⟩ => show win1_0.index t (1 : Fin 4) * 1 + 1 * b.val = win1_3.index t (1 : Fin 4) * 1 + 1 * b.val; omega
    | ⟨2, _⟩ => show win1_0.index t (2 : Fin 4) * 2048 + 1 * s.val = win1_3.index t (2 : Fin 4) * 2048 + 1 * s.val; omega
    | ⟨3, _⟩ => show win1_0.index t (3 : Fin 4) * 128 + 1 * d.val = d.val; omega
  have h2 : ∀ d : Fin 128, ((cfg1.win 2).blk t).view.emb (ix4 a b d e)
      = ix4 (n0 := 2) (n1 := 16) (n2 := 128) (n3 := 128) (((cfg1.win 3).blk t).view.emb (ix4 a b s e) 0) (((cfg1.win 3).blk t).view.emb (ix4 a b s e) 1)
          d (((cfg1.win 3).blk t).view.emb (ix4 a b s e) 3) := by
    intro d; funext x; apply Fin.ext
    match x with
    | ⟨0, _⟩ => show win1_2.index t (0 : Fin 4) * 1 + 1 * a.val = win1_3.index t (0 : Fin 4) * 1 + 1 * a.val; omega
    | ⟨1, _⟩ => show win1_2.index t (1 : Fin 4) * 1 + 1 * b.val = win1_3.index t (1 : Fin 4) * 1 + 1 * b.val; omega
    | ⟨2, _⟩ => show win1_2.index t (2 : Fin 4) * 128 + 1 * d.val = d.val; omega
    | ⟨3, _⟩ => show win1_2.index t (3 : Fin 4) * 128 + 1 * e.val = win1_3.index t (3 : Fin 4) * 128 + 1 * e.val; omega
  have r1 : iblk1 V c 1 t (ix4 a b s e) = V c main_arg2 (((cfg1.win 3).blk t).view.emb (ix4 a b s e)) := by
    show V c main_arg2 (((cfg1.win 1).blk t).view.emb (ix4 a b s e)) = _
    rw [h1]
  have r0 : ∀ d : Fin 128, iblk1 V c 0 t (ix4 a b s d)
      = V c main_arg0 (ix4 (n0 := 2) (n1 := 16) (n2 := 4096) (n3 := 128) (((cfg1.win 3).blk t).view.emb (ix4 a b s e) 0) (((cfg1.win 3).blk t).view.emb (ix4 a b s e) 1)
          (((cfg1.win 3).blk t).view.emb (ix4 a b s e) 2) d) := fun d => by
    show V c main_arg0 (((cfg1.win 0).blk t).view.emb (ix4 a b s d)) = _
    rw [h0 d]
  have r2 : ∀ d : Fin 128, iblk1 V c 2 t (ix4 a b d e)
      = V c main_v0 (ix4 (n0 := 2) (n1 := 16) (n2 := 128) (n3 := 128) (((cfg1.win 3).blk t).view.emb (ix4 a b s e) 0) (((cfg1.win 3).blk t).view.emb (ix4 a b s e) 1)
          d (((cfg1.win 3).blk t).view.emb (ix4 a b s e) 3)) := fun d => by
    show V c main_v0 (((cfg1.win 2).blk t).view.emb (ix4 a b d e)) = _
    rw [h2 d]
  rw [r1]
  simp only [r0, r2]
  show _ = outSpec (V c main_arg0) (V c main_arg2) (V c main_v0) (((cfg1.win 3).blk t).view.emb (ix4 a b s e) 0) (((cfg1.win 3).blk t).view.emb (ix4 a b s e) 1)
        (((cfg1.win 3).blk t).view.emb (ix4 a b s e) 2) (((cfg1.win 3).blk t).view.emb (ix4 a b s e) 3)
  unfold outSpec
  exact congrArg₂ (· + ·) (congrArg _ (eq_ix4 _)) rfl

/-- The same as an equation of blocks. -/
theorem flushed_eq (c : Dev nD) (t : Fin cfg1.N) :
    (dat1 V c).flushed 3 t = ((cfg1.win 3).blk t).view.read (Elt Ideal) (outArr (V c main_arg0) (V c main_arg2) (V c main_v0)) := by
  funext j
  have hj : j = ix4 (n0 := 1) (n1 := 1) (n2 := 2048) (n3 := 128) (j 0) (j 1) (j 2) (j 3) := eq_ix4 j
  rw [hj]
  exact flushed_apply V c t (j 0) (j 1) (j 2) (j 3)

/-- An index of the result's array is in point t's block iff each coordinate is in the block's range on its axis. -/
theorem mem_blk (t : Fin cfg1.N) (i : S2x16x4096x128.Idx) :
    i ∈ ((cfg1.win 3).blk t).view.set ↔ ∀ a : Fin 4, win1_3.index t a * S1x1x2048x128.size a ≤ (i a).val ∧ (i a).val < win1_3.index t a * S1x1x2048x128.size a + S1x1x2048x128.size a := by
  show i ∈ ((View.whole main_v1).slice (win1_3.rect t)).set ↔ _
  rw [View.set_slice_whole, Rect.mem_set_unit]
  exact Iff.rfl

/-- Every index of the result's array is in the block of the point (i0, i1, i2 / 2048), which writes it back. -/
theorem cover (i : S2x16x4096x128.Idx) :
    ∃ t : Fin cfg1.N, (cfg1.win 3).flush t = true ∧ i ∈ ((cfg1.win 3).blk t).view.set := by
  have b0 : (i 0).val < 2 := (i 0).isLt
  have b1 : (i 1).val < 16 := (i 1).isLt
  have b2 : (i 2).val < 4096 := (i 2).isLt
  have b3 : (i 3).val < 128 := (i 3).isLt
  obtain ⟨t, ht⟩ := idx_onto ⟨(i 0).val, b0⟩ ⟨(i 1).val, b1⟩ ⟨(i 2).val / 2048, by omega⟩
  have q0 : win1_3.index t (0 : Fin 4) = (i 0).val := congrFun ht 0
  have q1 : win1_3.index t (1 : Fin 4) = (i 1).val := congrFun ht 1
  have q2 : win1_3.index t (2 : Fin 4) = (i 2).val / 2048 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 2048 ≤ (i 2).val ∧ (i 2).val < win1_3.index t (2 : Fin 4) * 2048 + 2048; omega
  | ⟨3, _⟩ => show win1_3.index t (3 : Fin 4) * 128 ≤ (i 3).val ∧ (i 3).val < win1_3.index t (3 : Fin 4) * 128 + 128; omega

/-- THE RESULT'S ARRAY after region 1: the specification's result of the queries, the values and the product array as
    the region finds them. -/
theorem out_value (c : Dev nD) :
    (dat1 V c).arrAt 3 cfg1.N = outArr (V c main_arg0) (V c main_arg2) (V c main_v0) :=
  (dat1 V c).arrAt_eq_of_cover 3 _ (fun t _ => flushed_eq V c t) cover

end Cert.KernelIdeal.Val1

end
-- ==== Proof.Ref.lean ====
/-
  The reference at the ideal values is the specification: its result is the sum of the value array and the product
  of the query array with the key-value product, each product read index by index as a plain sum over the contracted
  axis (4096 rows for the first, 128 columns for the second) — no regrouping is needed on this side.
-/
import proofs.«141568_j48155173323323_1_alg».proof.Proof.Gen.ReferenceIdeal.Read
import proofs.«141568_j48155173323323_1_alg».proof.Proof.Spec

noncomputable section

namespace Cert.ReferenceIdeal.RefValue

open Idealize.ShloMosaic Idealize.ShloMosaic.ValueIdx Cert.ReferenceIdeal Cert.ReferenceIdeal.Read Cert.Spec

/-- The index functions of the two contractions, in coordinates. -/
theorem lidx_v0_eq (j : S2x16x128x128.Idx) (s : Fin 4096) : lidx_main_v0 j s = ix4 (j 0) (j 1) s (j 2) :=
  funext fun a => Fin.ext (by match a with | ⟨0, _⟩ => rfl | ⟨1, _⟩ => rfl | ⟨2, _⟩ => rfl | ⟨3, _⟩ => rfl)
theorem ridx_v0_eq (j : S2x16x128x128.Idx) (s : Fin 4096) : ridx_main_v0 j s = ix4 (j 0) (j 1) s (j 3) :=
  funext fun a => Fin.ext (by match a with | ⟨0, _⟩ => rfl | ⟨1, _⟩ => rfl | ⟨2, _⟩ => rfl | ⟨3, _⟩ => rfl)
theorem lidx_v1_eq (i : S2x16x4096x128.Idx) (d : Fin 128) : lidx_main_v1 i d = ix4 (i 0) (i 1) (i 2) d :=
  funext fun a => Fin.ext (by match a with | ⟨0, _⟩ => rfl | ⟨1, _⟩ => rfl | ⟨2, _⟩ => rfl | ⟨3, _⟩ => rfl)
theorem ridx_v1_eq (i : S2x16x4096x128.Idx) (d : Fin 128) : ridx_main_v1 i d = ix4 (i 0) (i 1) d (i 3) :=
  funext fun a => Fin.ext (by match a with | ⟨0, _⟩ => rfl | ⟨1, _⟩ => rfl | ⟨2, _⟩ => rfl | ⟨3, _⟩ => rfl)

/-- The first contraction is the key-value product of the specification. -/
theorem kv_eq (x1 x2 : (⟨S2x16x4096x128, .f32⟩ : BufTy).Contents (Elt Ideal)) :
    val_main_v0 (F := Ideal) x1 x2 = kvArr x1 x2 := by
  funext j
  rw [val_main_v0_apply]
  simp only [lidx_v0_eq, ridx_v0_eq]
  rfl

/-- The reference's result is the specification's, of the queries, the values and the key-value product. -/
theorem ref_value (x0 x1 x2 : (⟨S2x16x4096x128, .f32⟩ : BufTy).Contents (Elt Ideal)) :
    val_main_v2 (F := Ideal) x0 x1 x2 = outArr x0 x2 (kvArr x1 x2) := by
  funext i
  rw [val_main_v2_apply, val_main_v1_apply, kv_eq]
  simp only [lidx_v1_eq, ridx_v1_eq]
  conv_lhs => rw [eq_ix4 i]
  rfl

end Cert.ReferenceIdeal.RefValue

end
-- ==== Proof.lean ====
/-
  The certificate of a two-pass linear attention kernel against its reference, over q, k, v of shape [2, 16, 4096, 128]:

      kv[b, h, d, e]  = sum over s < 4096 of k[b, h, s, d] * v[b, h, s, e]
      out[b, h, s, e] = v[b, h, s, e] + sum over d < 128 of q[b, h, s, d] * kv[b, h, d, e].

  The reference computes the two contractions whole. The kernel's first pass walks the 4096 rows of each (b, h) in two
  blocks of 2048, adding each block's partial product into an accumulator that starts at zero, and writes the
  accumulator out after the second block; its second pass forms the result block by block. Its operands are narrowed to
  a 16-bit float format before each product; at the ideal values that narrowing is the identity, and the products into
  a zero accumulator are plain sums, so the two programs differ only in that the kernel's first sum is zero plus the
  lower half plus the upper half. That is the whole sum in any commutative additive monoid, so the equivalence needs no
  finiteness of the inputs and the precondition is never opened.

  The frames: each of the kernel's two passes is a pipelined region; the first carries its accumulator from point to
  point in a scratch buffer, so its invariant names the scratch's contents after every point. The run of the two
  regions in sequence leaves every unscoped buffer at contents named boundary by boundary: the arguments as launched,
  the product's array at what the first pass writes back, the result's array at what the second writes back. The same
  text serves the word-level program and the idealized one. The reference is three host operations, whose run is read
  back operation by operation.

  The idealization rewrote nothing, so that it is the kernel's sanctioned idealization holds trivially.
-/
import proofs.«141568_j48155173323323_1_alg».proof.Defs
import proofs.«141568_j48155173323323_1_alg».proof.Proof.Gen.Kernel
import proofs.«141568_j48155173323323_1_alg».proof.Proof.Gen.KernelIdeal
import proofs.«141568_j48155173323323_1_alg».proof.Proof.Gen.ReferenceIdeal
import proofs.«141568_j48155173323323_1_alg».proof.Proof.Gen.Pre_finite_inputs
import proofs.«141568_j48155173323323_1_alg».proof.Proof.KRun
import proofs.«141568_j48155173323323_1_alg».proof.Proof.Run
import proofs.«141568_j48155173323323_1_alg».proof.Proof.Val0
import proofs.«141568_j48155173323323_1_alg».proof.Proof.Val1
import proofs.«141568_j48155173323323_1_alg».proof.Proof.Ref
import Idealize.ShloMosaic.Adequacy
import Idealize.ShloMosaic.Init

noncomputable section

namespace Cert.Proof

open Idealize.ShloMosaic Idealize.ShloMosaic.TcCoe Idealize.SL.Sem Cert.Spec

/-- The word-level kernel runs to the end, faults nowhere and leaves its arguments unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values both programs end with the specification's result of the arguments: the kernel's result array
    holds what its second pass writes back, the specification's result over the product array its first pass wrote,
    which is the specification's product; the reference's three operations compose to the same function. -/
theorem algebraic : Cert.algebraic_KernelIdeal_ReferenceIdeal := by
  intro m ρ m' ρ' _ hagree
  refine ⟨fun c => outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (kvArr (m ((c.tc : Thread Cert.KernelIdeal.nD Cert.KernelIdeal.τ).loc Cert.KernelIdeal.main_arg1))
        (m ((c.tc : Thread Cert.KernelIdeal.nD Cert.KernelIdeal.τ).loc Cert.KernelIdeal.main_arg2))), ?_, ?_⟩
  · refine (θ_run Cert.KernelIdeal.defs _ _).mono (fun _ h c => ⟨(h c).1.trans ?_, (h c).2⟩)
      (Cert.KernelIdeal.Fr.run_value (F := Ideal) m ρ)
    rw [Cert.KernelIdeal.Val1.out_value (Cert.KernelIdeal.Fr.U1 m) c, Cert.KernelIdeal.Fr.U1_main_arg0, Cert.KernelIdeal.Fr.U1_main_arg2,
      Cert.KernelIdeal.Fr.U1_main_v0, Cert.KernelIdeal.Val0.kv_value (Cert.KernelIdeal.Fr.U0 m) c]
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v2_eq _ _ _).trans ((Cert.ReferenceIdeal.RefValue.ref_value _ _ _).trans ?_)
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
